-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576x4 : Shape := ⟨2, ![1048576, 4]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel

variable [Facts]

def fn {F : FTy → Type} [FloatOps F] (main_arg0 : FVec F S1048576x64 .f32) (main_arg1 : IVec S1048576x4 32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  main_v3
-- ==== Kernel.lean ====
abbrev S1048576x64 : Shape := ⟨2, ![1048576, 64]⟩
abbrev S1048576x4 : Shape := ⟨2, ![1048576, 4]⟩
abbrev S8x3 : Shape := ⟨2, ![8, 3]⟩
abbrev S8388608x8 : Shape := ⟨2, ![8388608, 8]⟩
abbrev S1048576x8x4 : Shape := ⟨3, ![1048576, 8, 4]⟩
abbrev S16384x4 : Shape := ⟨2, ![16384, 4]⟩
abbrev S16384x8x4 : Shape := ⟨3, ![16384, 8, 4]⟩
abbrev S16384x1x4 : Shape := ⟨3, ![16384, 1, 4]⟩
abbrev S1x8x3 : Shape := ⟨3, ![1, 8, 3]⟩
abbrev S16384x8x3 : Shape := ⟨3, ![16384, 8, 3]⟩
abbrev S16384x8x1 : Shape := ⟨3, ![16384, 8, 1]⟩
abbrev S8388608x4 : Shape := ⟨2, ![8388608, 4]⟩

abbrev nBuf : Space → Nat
  | .hbm => 6
  | .vmem => 5
  | .smem => 0
  | _ => 0

abbrev bufTy : (tb : Table) → Fin (tcTables nBuf tb) → BufTy
  | .hbm, ⟨0, _⟩ => ⟨S1048576x64, .f32⟩
  | .hbm, ⟨1, _⟩ => ⟨S1048576x4, .i32⟩
  | .hbm, ⟨2, _⟩ => ⟨S8x3, .i32⟩
  | .hbm, ⟨3, _⟩ => ⟨S8388608x8, .f32⟩
  | .hbm, ⟨4, _⟩ => ⟨S1048576x8x4, .i32⟩
  | .hbm, ⟨5, _⟩ => ⟨S8388608x4, .i32⟩
  | .local _ .vmem, ⟨0, _⟩ => ⟨S16384x4, .i32⟩
  | .local _ .vmem, ⟨1, _⟩ => ⟨S16384x4, .i32⟩
  | .local _ .vmem, ⟨2, _⟩ => ⟨S8x3, .i32⟩
  | .local _ .vmem, ⟨3, _⟩ => ⟨S16384x8x4, .i32⟩
  | .local _ .vmem, ⟨4, _⟩ => ⟨S16384x8x4, .i32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x8x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1048576x64_S8388608x8 : S1048576x64.ShapeCasts S8388608x8
  inb_S16384x4_S16384x4_0_0 : ∀ a, (![0, 0] : Fin 2 → Nat) a + S16384x4.size a ≤ S16384x4.size a
  h_S16384x4 : 0 < S16384x4.numel
  inb_S8x3_S8x3_0_0 : ∀ a, (![0, 0] : Fin 2 → Nat) a + S8x3.size a ≤ S8x3.size a
  h_S8x3 : 0 < S8x3.numel
  shapeCasts_S16384x4_S16384x1x4 : S16384x4.ShapeCasts S16384x1x4
  shapeCasts_S16384x1x4_S16384x1x4 : S16384x1x4.ShapeCasts S16384x1x4
  broadcasts_S16384x1x4_S16384x8x4 : S16384x1x4.Broadcasts S16384x8x4
  shapeCasts_S8x3_S1x8x3 : S8x3.ShapeCasts S1x8x3
  shapeCasts_S1x8x3_S1x8x3 : S1x8x3.ShapeCasts S1x8x3
  broadcasts_S1x8x3_S16384x8x3 : S1x8x3.Broadcasts S16384x8x3
  slices_S16384x8x4_o0_0_1_S16384x8x3 : S16384x8x4.Slices ![0, 0, 1] S16384x8x3
  slices_S16384x8x4_o0_0_0_S16384x8x1 : S16384x8x4.Slices ![0, 0, 0] S16384x8x1
  inb_S16384x8x4_S16384x8x1_0_0_0 : ∀ a, (![0, 0, 0] : Fin 3 → Nat) a + S16384x8x1.size a ≤ S16384x8x4.size a
  h_S16384x8x1 : 0 < S16384x8x1.numel
  inb_S16384x8x4_S16384x8x3_0_0_1 : ∀ a, (![0, 0, 1] : Fin 3 → Nat) a + S16384x8x3.size a ≤ S16384x8x4.size a
  h_S16384x8x3 : 0 < S16384x8x3.numel
  shapeCasts_S1048576x8x4_S8388608x4 : S1048576x8x4.ShapeCasts S8388608x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x4.size a ≤ S1048576x4.size a
  hwx0_0 : ∀ i : grid0.Coords, EltTy.bits .i32 = 32 ∨ (Rect.block (s := S1048576x4) S16384x4.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S8x3.size a
  hwx0_1 : ∀ i : grid0.Coords, EltTy.bits .i32 = 32 ∨ (Rect.block (s := S8x3) S8x3.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x8x4.size a ≤ S1048576x8x4.size a
  hwx0_2 : ∀ i : grid0.Coords, EltTy.bits .i32 = 32 ∨ (Rect.block (s := S1048576x8x4) S16384x8x4.size (cc0_transform_2 i) (hinb0_2 i)).WholeWords (EltTy.packing .i32)

variable [Facts₀]

abbrev win0_0 : Pipeline.Window sig grid0 :=
  Pipeline.Window.ofSpec (Memref.whole main_arg1) S16384x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_c) S8x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16384x8x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576x4 : Shape := ⟨2, ![1048576, 4]⟩
abbrev S8x3 : Shape := ⟨2, ![8, 3]⟩
abbrev S8388608x8 : Shape := ⟨2, ![8388608, 8]⟩
abbrev S1048576x8x4 : Shape := ⟨3, ![1048576, 8, 4]⟩
abbrev S8388608x4 : Shape := ⟨2, ![8388608, 4]⟩
abbrev S1x8x1x3 : Shape := ⟨4, ![1, 8, 1, 3]⟩
abbrev S1048576x8x1x3 : Shape := ⟨4, ![1048576, 8, 1, 3]⟩
abbrev S8388608x3 : Shape := ⟨2, ![8388608, 3]⟩
abbrev S_ : Shape := ⟨0, ![]⟩
abbrev S8388608x1 : Shape := ⟨2, ![8388608, 1]⟩

abbrev nBuf : Space → Nat
  | .hbm => 16
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x4, .i32⟩
  | .hbm, ⟨2, _⟩ => ⟨S8x3, .i32⟩
  | .hbm, ⟨3, _⟩ => ⟨S8388608x8, .f32⟩
  | .hbm, ⟨4, _⟩ => ⟨S1048576x8x4, .i32⟩
  | .hbm, ⟨5, _⟩ => ⟨S8388608x4, .i32⟩
  | .hbm, ⟨6, _⟩ => ⟨S1x8x1x3, .i32⟩
  | .hbm, ⟨7, _⟩ => ⟨S1048576x8x1x3, .i32⟩
  | .hbm, ⟨8, _⟩ => ⟨S8388608x3, .i32⟩
  | .hbm, ⟨9, _⟩ => ⟨S8388608x3, .i32⟩
  | .hbm, ⟨10, _⟩ => ⟨S_, .i32⟩
  | .hbm, ⟨11, _⟩ => ⟨S8388608x3, .i32⟩
  | .hbm, ⟨12, _⟩ => ⟨S8388608x3, .i32⟩
  | .hbm, ⟨13, _⟩ => ⟨S8388608x3, .i32⟩
  | .hbm, ⟨14, _⟩ => ⟨S8388608x1, .i32⟩
  | .hbm, ⟨15, _⟩ => ⟨S8388608x4, .i32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S1048576x64_S8388608x8 : S1048576x64.ShapeCasts S8388608x8
  bcast_S1048576x4_S1048576x8x4_0_2 : S1048576x4.BroadcastsInDim S1048576x8x4 (![0, 2] : Fin 2 → Fin S1048576x8x4.rank)
  shapeCasts_S1048576x8x4_S8388608x4 : S1048576x8x4.ShapeCasts S8388608x4
  shapeCasts_S8x3_S1x8x1x3 : S8x3.ShapeCasts S1x8x1x3
  bcast_S1x8x1x3_S1048576x8x1x3_0_1_2_3 : S1x8x1x3.BroadcastsInDim S1048576x8x1x3 (![0, 1, 2, 3] : Fin 4 → Fin S1048576x8x1x3.rank)
  shapeCasts_S1048576x8x1x3_S8388608x3 : S1048576x8x1x3.ShapeCasts S8388608x3
  slices_S8388608x4_S8388608x3_0_1 : S8388608x4.Slices ![0, 1] S8388608x3
  bcast_S_S8388608x3 : S_.BroadcastsInDim S8388608x3 (![] : Fin 0 → Fin S8388608x3.rank)
  slices_S8388608x4_S8388608x1_0_0 : S8388608x4.Slices ![0, 0] S8388608x1
  concatenates_S8388608x1_S8388608x3_S8388608x4_d1 : Shape.Concatenates [S8388608x1, S8388608x3] S8388608x4 1

variable [Facts₀]

class Facts : Prop extends Facts₀ where

variable [Facts]
-- ==== Proof.Spec.lean ====
/-
  The specification of the index remap, as one function. Every row (b, z, y, x) of an index array i32[R, 4] becomes eight
  rows, one per corner v of the 2 x 2 x 2 cell: the batch entry b is kept, and each spatial entry is doubled and the
  corner's offset on that axis added, in 32-bit wrapping arithmetic:
      expand A C (n, v, 0) = A (n, 0),      expand A C (n, v, k) = A (n, k) * 2 + C (v, k - 1)   for k = 1, 2, 3,
  with C the 8 x 3 table of corner offsets. Stated for any number of rows R, so that it names both a block of rows
  and the whole array; an entry depends on row n of A only, which is what lets a block of the result be computed from
  a block of the rows.
-/
import Idealize.ShloMosaic.PureOps
import Idealize.ShloMosaic.Lib.ValueIdx

noncomputable section

namespace Cert.Remap

open Idealize.ShloMosaic Idealize.ShloMosaic.ValueIdx

/-- A column k = 1, 2, 3 of the output names column k - 1 of the offset table. -/
def prevCol (k : Fin 4) (hk : k.val ≠ 0) : Fin 3 := ⟨k.val - 1, by have := k.isLt; omega⟩

/-- One entry of the result from ONE row of the index array: column 0 copied, columns 1..3 doubled plus corner v's offset. -/
def cell (row : Fin 4 → BitVec 32) (C : IVec ⟨2, ![8, 3]⟩ 32) (v : Fin 8) (k : Fin 4) : BitVec 32 :=
  if hk : k.val = 0 then row 0
  else IntOp.addi (IntOp.muli (row k) 2#32) (C (ix2 v (prevCol k hk)))

/-- The remap: entry (n, v, k) is `cell` of row n. -/
def expand {R : Nat} (A : IVec ⟨2, ![R, 4]⟩ 32) (C : IVec ⟨2, ![8, 3]⟩ 32) : IVec ⟨3, ![R, 8, 4]⟩ 32 :=
  fun i => cell (fun k => A (ix2 (⟨(i 0).val, (i 0).isLt⟩ : Fin R) k)) C ⟨(i 1).val, (i 1).isLt⟩ ⟨(i 2).val, (i 2).isLt⟩

/-- At column 0 the remap copies the batch entry. -/
theorem expand_col0 {R : Nat} (A : IVec ⟨2, ![R, 4]⟩ 32) (C : IVec ⟨2, ![8, 3]⟩ 32) (i : (⟨3, ![R, 8, 4]⟩ : Shape).Idx)
    (n : Fin R) (hn : n.val = (i 0).val) (h0 : (i 2).val = 0) : expand A C i = A (ix2 n (0 : Fin 4)) := by
  unfold expand cell
  rw [dif_pos h0]
  exact congrArg A (congrArg (fun n => ix2 n (0 : Fin 4)) (Fin.ext hn.symm))

/-- At a column k = 1, 2, 3 the remap doubles the spatial entry and adds the corner's offset. -/
theorem expand_col {R : Nat} (A : IVec ⟨2, ![R, 4]⟩ 32) (C : IVec ⟨2, ![8, 3]⟩ 32) (i : (⟨3, ![R, 8, 4]⟩ : Shape).Idx)
    (n : Fin R) (v : Fin 8) (k : Fin 4) (k' : Fin 3) (hn : n.val = (i 0).val) (hv : v.val = (i 1).val)
    (hk : k.val = (i 2).val) (hk' : k'.val + 1 = (i 2).val) :
    expand A C i = IntOp.addi (IntOp.muli (A (ix2 n k)) 2#32) (C (ix2 v k')) := by
  unfold expand cell
  have h0 : ¬ (i 2).val = 0 := by omega
  rw [dif_neg h0]
  have e1 : (⟨(i 0).val, (i 0).isLt⟩ : Fin R) = n := Fin.ext hn.symm
  have e2 : (⟨(i 1).val, (i 1).isLt⟩ : Fin 8) = v := Fin.ext hv.symm
  have e3 : (⟨(i 2).val, (i 2).isLt⟩ : Fin 4) = k := Fin.ext hk.symm
  have e4 : prevCol ⟨(i 2).val, (i 2).isLt⟩ h0 = k' := Fin.ext (by unfold prevCol; show (i 2).val - 1 = k'.val; omega)
  rw [e4, e1, e2, e3]

/-- An entry depends on ONE row of the index array: two remaps agree at indices with the same corner and column whose
    rows hold the same four entries. -/
theorem expand_eq_of_row {R R' : Nat} (A : IVec ⟨2, ![R, 4]⟩ 32) (A' : IVec ⟨2, ![R', 4]⟩ 32) (C : IVec ⟨2, ![8, 3]⟩ 32)
    (i : (⟨3, ![R, 8, 4]⟩ : Shape).Idx) (i' : (⟨3, ![R', 8, 4]⟩ : Shape).Idx)
    (h1 : (i 1).val = (i' 1).val) (h2 : (i 2).val = (i' 2).val)
    (hA : ∀ k : Fin 4, A (ix2 (⟨(i 0).val, (i 0).isLt⟩ : Fin R) k) = A' (ix2 (⟨(i' 0).val, (i' 0).isLt⟩ : Fin R') k)) :
    expand A C i = expand A' C i' := by
  unfold expand
  rw [show (fun k => A (ix2 (⟨(i 0).val, (i 0).isLt⟩ : Fin R) k)) = fun k => A' (ix2 (⟨(i' 0).val, (i' 0).isLt⟩ : Fin R') k) from funext hA,
    show (⟨(i 1).val, (i 1).isLt⟩ : Fin 8) = ⟨(i' 1).val, (i' 1).isLt⟩ from Fin.ext h1,
    show (⟨(i 2).val, (i 2).isLt⟩ : Fin 4) = ⟨(i' 2).val, (i' 2).isLt⟩ from Fin.ext h2]

end Cert.Remap

end
-- ==== Proof.KernelBlock.lean ====
/-
  One grid point of the kernel. The body loads a block of 16384 index rows and the 8 x 3 offset table, repeats every row
  along a new middle axis of extent 8 (a broadcast), and makes two stores into the [16384, 8, 4] output block: column 0
  of the repeated rows into columns 0..0, and columns 1..3 doubled plus the table (broadcast over the rows) into columns
  1..3. The two stored rectangles tile the block, and each store's payload is the remap `expand` of the two loaded
  blocks restricted to its rectangle; so the block ends holding `expand` of the loaded blocks, whatever it held before.
-/
import proofs.«175016_j40948218200800_1_alg».proof.Proof.Gen.KernelIdeal.Frame
import proofs.«175016_j40948218200800_1_alg».proof.Proof.Spec
import Idealize.ShloMosaic.Lib.Pipeline.Value
import Idealize.ShloMosaic.Lib.Tactic

noncomputable section

open Idealize.ShloMosaic Idealize.ShloMosaic.TcCoe Idealize.SL.Sem Idealize.ShloMosaic.ValueIdx

namespace Cert.KernelIdeal.Remap

open Cert.KernelIdeal Cert.KernelIdeal.Gen Cert.Remap

variable {F : FTy → Type} [FloatOps F]

theorem hz2 : (![0, 0] : Fin 2 → Nat) = fun _ => 0 := funext fun a => by fin_cases a <;> rfl

/-- The rows repeated over the new middle axis: entry (n, v, k) is entry (n, k) of the loaded rows. -/
theorem repeated_apply (x0 : Vec F S16384x4 .i32) (n : Fin 16384) (v : Fin 8) (k : Fin 4) :
    k0_pay1 x0 (ix3 n v k) = x0 (ix2 n k) := by
  unfold k0_pay1
  refine (broadcastTo_apply _ _ (ix3 n v k) (ix3 n (0 : Fin 1) k)
    (fun a => match a with | ⟨0, _⟩ => rfl | ⟨1, _⟩ => rfl | ⟨2, _⟩ => rfl)).trans ?_
  rw [shapeCast_self]
  exact shapeCast_apply _ _ (ix3 n (0 : Fin 1) k) (ix2 n k) (by
    rw [Shape.rowMajor_val_two, Shape.rowMajor_val_three]
    show n.val * 4 + k.val = (n.val * 1 + 0) * 4 + k.val
    omega)

/-- The table broadcast over the rows: entry (n, v, k) is entry (v, k) of the loaded table. -/
theorem tableOver_apply (x1 : Vec F S8x3 .i32) (h1 : S8x3.ShapeCasts S1x8x3) (h2 : S1x8x3.ShapeCasts S1x8x3)
    (h3 : S1x8x3.Broadcasts S16384x8x3) (n : Fin 16384) (v : Fin 8) (k : Fin 3) :
    broadcastTo S16384x8x3 (shapeCast S1x8x3 (shapeCast S1x8x3 x1 h1) h2) h3 (ix3 n v k) = x1 (ix2 v k) := by
  refine (broadcastTo_apply _ _ (ix3 n v k) (ix3 (0 : Fin 1) v k)
    (fun a => match a with | ⟨0, _⟩ => rfl | ⟨1, _⟩ => rfl | ⟨2, _⟩ => rfl)).trans ?_
  rw [shapeCast_self]
  exact shapeCast_apply _ _ (ix3 (0 : Fin 1) v k) (ix2 v k) (by
    rw [Shape.rowMajor_val_two, Shape.rowMajor_val_three]
    show v.val * 3 + k.val = (0 * 8 + v.val) * 3 + k.val
    omega)

/-- The store into column 0: at the rectangle's local index its payload is the remap at the index it lands on. -/
theorem col0_store (x0 : Vec F S16384x4 .i32) (x1 : Vec F S8x3 .i32)
    (x : (Rect.unit (s := S16384x8x4) ![0, 0, 0] S16384x8x1.size inb_S16384x8x4_S16384x8x1_0_0_0).shape.Idx) :
    k0_pay3 x0 x = expand (R := 16384) x0 x1
      ((Rect.unit (s := S16384x8x4) ![0, 0, 0] S16384x8x1.size inb_S16384x8x4_S16384x8x1_0_0_0).emb x) := by
  have b0 : (x 0).val < 16384 := (x 0).isLt
  have b1 : (x 1).val < 8 := (x 1).isLt
  have b2 : (x 2).val < 1 := (x 2).isLt
  unfold k0_pay3
  refine (extractStridedSlice_apply ![0, 0, 0] (k0_pay1 x0) slices_S16384x8x4_o0_0_0_S16384x8x1 x
    (ix3 (⟨(x 0).val, b0⟩ : Fin 16384) (⟨(x 1).val, b1⟩ : Fin 8) (0 : Fin 4)) (fun a => match a with
      | ⟨0, _⟩ => by show (x 0).val = 0 + (x 0).val; omega
      | ⟨1, _⟩ => by show (x 1).val = 0 + (x 1).val; omega
      | ⟨2, _⟩ => by show 0 = 0 + (x 2).val; omega)).trans ?_
  rw [repeated_apply]
  exact (expand_col0 x0 x1 _ ⟨(x 0).val, b0⟩ (by show (x 0).val = 0 + 1 * (x 0).val; omega)
    (by show 0 + 1 * (x 2).val = 0; omega)).symm

/-- The store into columns 1..3: at the rectangle's local index its payload is the remap at the index it lands on. -/
theorem cols_store (x0 : Vec F S16384x4 .i32) (x1 : Vec F S8x3 .i32)
    (x : (Rect.unit (s := S16384x8x4) ![0, 0, 1] S16384x8x3.size inb_S16384x8x4_S16384x8x3_0_0_1).shape.Idx) :
    k0_pay2 x0 x1 x = expand (R := 16384) x0 x1
      ((Rect.unit (s := S16384x8x4) ![0, 0, 1] S16384x8x3.size inb_S16384x8x4_S16384x8x3_0_0_1).emb x) := by
  have b0 : (x 0).val < 16384 := (x 0).isLt
  have b1 : (x 1).val < 8 := (x 1).isLt
  have b2 : (x 2).val < 3 := (x 2).isLt
  have ex : x = ix3 (⟨(x 0).val, b0⟩ : Fin 16384) (⟨(x 1).val, b1⟩ : Fin 8) (⟨(x 2).val, b2⟩ : Fin 3) := by
    funext a; match a with | ⟨0, _⟩ => rfl | ⟨1, _⟩ => rfl | ⟨2, _⟩ => rfl
  have e1 : extractStridedSlice S16384x8x3 ![0, 0, 1] (k0_pay1 x0) slices_S16384x8x4_o0_0_1_S16384x8x3 x
      = x0 (ix2 (⟨(x 0).val, b0⟩ : Fin 16384) (⟨1 + (x 2).val, by omega⟩ : Fin 4)) :=
    (extractStridedSlice_apply ![0, 0, 1] (k0_pay1 x0) slices_S16384x8x4_o0_0_1_S16384x8x3 x
      (ix3 (⟨(x 0).val, b0⟩ : Fin 16384) (⟨(x 1).val, b1⟩ : Fin 8) (⟨1 + (x 2).val, by omega⟩ : Fin 4)) (fun a => match a with
        | ⟨0, _⟩ => by show (x 0).val = 0 + (x 0).val; omega
        | ⟨1, _⟩ => by show (x 1).val = 0 + (x 1).val; omega
        | ⟨2, _⟩ => rfl)).trans (repeated_apply x0 _ _ _)
  have e2 : broadcastTo S16384x8x3 (shapeCast S1x8x3 (shapeCast S1x8x3 x1 shapeCasts_S8x3_S1x8x3) shapeCasts_S1x8x3_S1x8x3)
      broadcasts_S1x8x3_S16384x8x3 x = x1 (ix2 (⟨(x 1).val, b1⟩ : Fin 8) (⟨(x 2).val, b2⟩ : Fin 3)) := by
    conv_lhs => rw [ex]
    exact tableOver_apply x1 _ _ _ _ _ _
  rw [expand_col x0 x1 _ (⟨(x 0).val, b0⟩ : Fin 16384) (⟨(x 1).val, b1⟩ : Fin 8) (⟨1 + (x 2).val, by omega⟩ : Fin 4)
    (⟨(x 2).val, b2⟩ : Fin 3)
    (by show (x 0).val = 0 + 1 * (x 0).val; omega) (by show (x 1).val = 0 + 1 * (x 1).val; omega)
    (by show 1 + (x 2).val = 1 + 1 * (x 2).val; omega) (by show (x 2).val + 1 = 1 + 1 * (x 2).val; omega),
    ← e1, ← e2]
  rfl

/-- What the body leaves in the output's staging buffer: the remap of the two loaded blocks. -/
theorem block_eq (c : Dev nD) (i : grid0.Coords) (a1 : Memref sig .tc .vmem S16384x4 .i32) (h1 : a1.IsWhole)
    (a2 : Memref sig .tc .vmem S8x3 .i32) (h2 : a2.IsWhole) (a3 : Memref sig .tc .vmem S16384x8x4 .i32) (h3 : a3.IsWhole)
    (x0 : Vec F S16384x4 .i32) (x1 : Vec F S8x3 .i32) :
    out0_A_2 c i a1 h1 a2 h2 a3 h3 x0 x1 = expand (R := 16384) x0 x1 := by
  unfold out0_A_2
  rw [View.read_writes_eq_canon _ _ _ (cover0_A_2 c i a1 h1 a2 h2 a3 h3 x0 x1)]
  funext y
  refine View.canon_apply_of_pieces (expand (R := 16384) x0 x1) _ ?_ y (cover0_A_2 c i a1 h1 a2 h2 a3 h3 x0 x1 y)
  unfold kernelRun0_A
  dsimp only
  sl_unfold_words
  simp only [View.readAt_eq_ld, h1.read_unread, h2.read_unread, View.ld_unit_zero (S := S16384x4) hz2,
    View.ld_unit_zero (S := S8x3) hz2]
  intro p hp
  simp only [List.mem_cons, List.not_mem_nil, or_false] at hp
  rcases hp with rfl | rfl
  · exact cols_store x0 x1
  · exact col0_store x0 x1

end Cert.KernelIdeal.Remap

end
-- ==== Proof.KernelValue.lean ====
/-
  The kernel's result arrays. The grid has 64 points; point t stages rows 16384 t .. 16384 t + 16383 of the index array
  and the whole offset table, and writes back block t of the [1048576, 8, 4] result, which (by the block-level fact) is
  the remap of the staged rows: entry (p, v, k) of block t is entry (16384 t + p, v, k) of the remap of the whole index
  array, because an entry of the remap depends on its own row only. The 64 blocks tile the result (row n lies in block
  n / 16384), so the result array ends holding the remap of the index array and the table. Around the region the host
  writes the table and regroups the features before it, and regroups the result to [8388608, 4] after it.
-/
import proofs.«175016_j40948218200800_1_alg».proof.Proof.KernelBlock
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Remap

open Cert.KernelIdeal Cert.KernelIdeal.Gen Cert.Remap

variable {F : FTy → Type} [FloatOps F]
variable (m : (ℓ : Loc nD τ sig) → Buf (Elt F) ℓ) (ρ : Dev nD → PrngReg)

/-- The index array and the offset table as the region finds them, and a point's staged blocks of them. -/
abbrev rowsArr (c : Dev nD) : IVec S1048576x4 32 := V m c main_arg1
abbrev tblArr (c : Dev nD) : IVec S8x3 32 := V m c main_c
abbrev rowsBlk (c : Dev nD) (t : Fin cfg0.N) : IVec S16384x4 32 := iblk m c 0 t
abbrev tblBlk (c : Dev nD) (t : Fin cfg0.N) : IVec S8x3 32 := iblk m c 1 t

/-- The printed index maps over the grid: the rows' and the result's block index is the point, every other is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Row p of the block staged at point t is row 16384 t + p of the index array. -/
theorem rowsBlk_apply (c : Dev nD) (t : Fin cfg0.N) (p : Fin 16384) (n : Fin 1048576) (hn : n.val = t.val * 16384 + p.val)
    (k : Fin 4) : rowsBlk m c t (ix2 p k) = rowsArr m c (ix2 n k) := by
  obtain ⟨e0, e1, -⟩ := idx_facts t
  show iblk m c 0 t (ix2 p k) = _
  unfold iblk
  rw [View.read_apply]
  show V m c main_arg1 (((cfg0.win 0).blk t).view.emb (ix2 p k)) = V m c main_arg1 (ix2 n k)
  have h : ((cfg0.win 0).blk t).view.emb (ix2 p k) = ix2 n k := by
    funext a; apply Fin.ext
    match a with
    | ⟨0, _⟩ => show win0_0.index t (0 : Fin 2) * 16384 + 1 * p.val = n.val; rw [e0]; omega
    | ⟨1, _⟩ => show win0_0.index t (1 : Fin 2) * 4 + 1 * k.val = k.val; rw [e1]; omega
  rw [h]

/-- The table's one block is the table. -/
theorem tblBlk_eq (c : Dev nD) (t : Fin cfg0.N) : tblBlk m c t = tblArr m c := by
  obtain ⟨-, -, e2, e3, -⟩ := idx_facts t
  funext y
  show iblk m c 1 t y = _
  unfold iblk
  rw [View.read_apply]
  show V m c main_c (((cfg0.win 1).blk t).view.emb y) = V m c main_c y
  have h : ((cfg0.win 1).blk t).view.emb y = y := by
    funext a; apply Fin.ext
    match a with
    | ⟨0, _⟩ => show win0_1.index t (0 : Fin 2) * 8 + 1 * (y 0).val = (y 0).val; rw [e2]; omega
    | ⟨1, _⟩ => show win0_1.index t (1 : Fin 2) * 3 + 1 * (y 1).val = (y 1).val; rw [e3]; omega
  rw [h]

/-- What point t writes back is block t of the remap of the whole index array. -/
theorem flushed_eq (c : Dev nD) (t : Fin cfg0.N) :
    (dats m 0 c).flushed 2 t
      = ((cfg0.win 2).blk t).view.read (Elt F) (expand (R := 1048576) (rowsArr m c) (tblArr m c)) := by
  show (cfg0.win 2).cut (grid0.coords t) ((dats m 0 c).after 2 t) = _
  rw [after0_2]
  unfold outsAt0
  rw [block_eq]
  obtain ⟨-, -, -, -, e4, e5, e6⟩ := idx_facts t
  funext j
  show expand (R := 16384) (rowsBlk m c t) (tblBlk m c t) j
    = expand (R := 1048576) (rowsArr m c) (tblArr m c) (((cfg0.win 2).blk t).view.emb j)
  rw [tblBlk_eq m c t]
  have b0 : (j 0).val < 16384 := (j 0).isLt
  have hN : cfg0.N = 64 := N_0
  have ht := t.isLt
  refine expand_eq_of_row _ _ _ j _ ?_ ?_ ?_
  · show (j 1).val = win0_2.index t (1 : Fin 3) * 8 + 1 * (j 1).val; rw [e5]; omega
  · show (j 2).val = win0_2.index t (2 : Fin 3) * 4 + 1 * (j 2).val; rw [e6]; omega
  · intro k
    exact rowsBlk_apply m c t _ _ (by
      show win0_2.index t (0 : Fin 3) * 16384 + 1 * (j 0).val = t.val * 16384 + (j 0).val; rw [e4]; omega) k

/-- Row n of the result lies in the block of point n / 16384. -/
theorem covered (i : S1048576x8x4.Idx) :
    ∃ t : Fin cfg0.N, (cfg0.win 2).flush t = true ∧ i ∈ ((cfg0.win 2).blk t).view.set := by
  have hN : cfg0.N = 64 := N_0
  have b0 : (i 0).val < 1048576 := (i 0).isLt
  have b1 : (i 1).val < 8 := (i 1).isLt
  have b2 : (i 2).val < 4 := (i 2).isLt
  obtain ⟨t, ht⟩ : ∃ t : Fin cfg0.N, t.val = (i 0).val / 16384 := ⟨⟨(i 0).val / 16384, by rw [hN]; omega⟩, rfl⟩
  obtain ⟨-, -, -, -, e4, e5, e6⟩ := idx_facts t
  refine ⟨t, flush0_2 t, ?_⟩
  show i ∈ ((View.whole main_v1).slice (win0_2.rect t)).set
  rw [View.set_slice_whole, Rect.mem_set_unit]
  intro a
  match a with
  | ⟨0, _⟩ => show win0_2.index t (0 : Fin 3) * 16384 ≤ (i 0).val ∧ (i 0).val < win0_2.index t (0 : Fin 3) * 16384 + 16384; rw [e4, ht]; omega
  | ⟨1, _⟩ => show win0_2.index t (1 : Fin 3) * 8 ≤ (i 1).val ∧ (i 1).val < win0_2.index t (1 : Fin 3) * 8 + 8; rw [e5]; omega
  | ⟨2, _⟩ => show win0_2.index t (2 : Fin 3) * 4 ≤ (i 2).val ∧ (i 2).val < win0_2.index t (2 : Fin 3) * 4 + 4; rw [e6]; omega

/-- The result array after the region: the remap of the index array and the table as the region found them. -/
theorem final (c : Dev nD) : (dats m 0 c).arrAt 2 cfg0.N = expand (R := 1048576) (rowsArr m c) (tblArr m c) :=
  (dats m 0 c).arrAt_eq_of_cover 2 _ (fun t _ => flushed_eq m c t) covered

/-- The region finds the index array as launched. -/
theorem rowsArr_eq (c : Dev nD) : rowsArr m c = m ((c : Thread nD τ).loc main_arg1) := V_main_arg1 m c

/-- The host writes the table of corner offsets before the region. -/
theorem tblArr_eq (c : Dev nD) : tblArr m c = fun i => lit0 (S8x3.rowMajor i) := by
  show StableHlo.after hostOps0 (fun b => m (c, b)) (Proc.devRef .tc main_c) = _
  after_results <;> rfl

/-- The host regroups the features before the region. -/
theorem featsArr_eq (c : Dev nD) : (V m c main_v0 : FVec F S8388608x8 .f32)
    = shapeCast S8388608x8 (m ((c : Thread nD τ).loc main_arg0)) shapeCasts_S1048576x64_S8388608x8 := by
  show StableHlo.after hostOps0 (fun b => m (c, b)) (Proc.devRef .tc main_v0) = _
  after_results <;> rfl

/-- The regrouped features pass the region and the lines after it untouched. -/
theorem tail_feats (c : Dev nD) : (Pipeline.afterTail₀ cfgs (dats m) 0 (V0 m) [hostOps1] c main_v0 : FVec F S8388608x8 .f32)
    = shapeCast S8388608x8 (m ((c : Thread nD τ).loc main_arg0)) shapeCasts_S1048576x64_S8388608x8 := by
  unfold Pipeline.afterTail₀
  rw [StableHlo.after_of_forall_not_mem (b := Proc.devRef .tc main_v0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_v0 (by exact (by decide : ∀ w, Pipeline.arrRef spec0 w ≠ main_v0))]
  exact featsArr_eq m c

/-- The line after the region regroups the result array to [8388608, 4]. -/
theorem tail_idx (c : Dev nD) : (Pipeline.afterTail₀ cfgs (dats m) 0 (V0 m) [hostOps1] c main_v2 : IVec S8388608x4 32)
    = shapeCast S8388608x4 (expand (R := 1048576) (m ((c : Thread nD τ).loc main_arg1)) (fun i => lit0 (S8x3.rowMajor i)))
        shapeCasts_S1048576x8x4_S8388608x4 := by
  have hw : (Pipeline.withArrays (cfgs 0).spec c (V0 m c) (fun w => (dats m 0 c).arrAt w (cfgs 0).N)
      (Proc.devRef .tc main_v1) : IVec S1048576x8x4 32)
      = expand (R := 1048576) (m ((c : Thread nD τ).loc main_arg1)) (fun i => lit0 (S8x3.rowMajor i)) := by
    refine ((Pipeline.withArrays_arr spec0 launch0.win.arr_inj c _ _ 2).trans (final m c)).trans ?_
    rw [rowsArr_eq, tblArr_eq]
  unfold Pipeline.afterTail₀
  show StableHlo.after hostOps1 _ (Proc.devRef .tc main_v2) = _
  after_results
  rw [hw]
  rfl

/-- The kernel program's run, read: the regrouped features, the remap of the index array regrouped to [8388608, 4],
    and the arguments unchanged. -/
theorem run : θ_run defs (onTc (τ := τ) (main (F := F))) ⟨m, fun _ => 0, ρ⟩ fun r => ∀ c : Dev nD,
      r.2.mem ((c : Thread nD τ).loc main_v0)
        = shapeCast S8388608x8 (m ((c : Thread nD τ).loc main_arg0)) shapeCasts_S1048576x64_S8388608x8
      ∧ r.2.mem ((c : Thread nD τ).loc main_v2)
        = shapeCast S8388608x4 (expand (R := 1048576) (m ((c : Thread nD τ).loc main_arg1)) (fun i => lit0 (S8x3.rowMajor i)))
            shapeCasts_S1048576x8x4_S8388608x4
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v0 (Pipeline.mem_restRefs_of main_v0 (by decide) (by decide))).trans (tail_feats m c),
     ((h c).2 main_v2 (Pipeline.mem_restRefs_of main_v2 (by decide) (by decide))).trans (tail_idx m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c)))⟩)
    (run_main m ρ)

end Cert.KernelIdeal.Remap

end
-- ==== Proof.RefRun.lean ====
/-
  The reference program's run, read back. Its @main is a straight line of fourteen host operations: the 8 x 3 table of
  corner offsets, the reshape of the features f32[1048576, 64] to f32[8388608, 8], and for the indices i32[1048576, 4]
  a repeat of every row eight times (a broadcast along a new middle axis, reshaped to i32[8388608, 4]), the table tiled
  over the rows (a broadcast along a new leading axis, reshaped to i32[8388608, 3]), columns 1..3 doubled and the tiled
  table added, column 0 kept, the two joined along the columns. Every weakly fair execution terminates with each result
  buffer at the composed term of the argument arrays, and the arguments unchanged.
-/
import proofs.«175016_j40948218200800_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The table of the eight corner offsets, row-major. -/
abbrev table : IVec S8x3 32 := fun i => lit0 (S8x3.rowMajor i)

/-- @main's fourteen operations, in order. -/
abbrev ops : List (HloOp τ sig (Elt F)) :=
  [ nullary main_c (fun i => lit0 (S8x3.rowMajor i)),
    reshape main_arg0 main_v0 rfl shapeCasts_S1048576x64_S8388608x8,
    unary main_arg1 main_v1 (broadcastInDim S1048576x8x4 ![0, 2] bcast_S1048576x4_S1048576x8x4_0_2 : (⟨S1048576x4, .i32⟩ : BufTy).Contents (Elt F) → (⟨S1048576x8x4, .i32⟩ : BufTy).Contents (Elt F)),
    reshape main_v1 main_v2 rfl shapeCasts_S1048576x8x4_S8388608x4,
    reshape main_c main_v3 rfl shapeCasts_S8x3_S1x8x1x3,
    unary main_v3 main_v4 (broadcastInDim S1048576x8x1x3 ![0, 1, 2, 3] bcast_S1x8x1x3_S1048576x8x1x3_0_1_2_3 : (⟨S1x8x1x3, .i32⟩ : BufTy).Contents (Elt F) → (⟨S1048576x8x1x3, .i32⟩ : BufTy).Contents (Elt F)),
    reshape main_v4 main_v5 rfl shapeCasts_S1048576x8x1x3_S8388608x3,
    unary main_v2 main_v6 ((extractStridedSlice S8388608x3 ![0, 1] · slices_S8388608x4_S8388608x3_0_1) : (⟨S8388608x4, .i32⟩ : BufTy).Contents (Elt F) → (⟨S8388608x3, .i32⟩ : BufTy).Contents (Elt F)),
    nullary main_c_0 (constantI S_ 32 2#32),
    unary main_c_0 main_v7 (broadcastInDim S8388608x3 ![] bcast_S_S8388608x3 : (⟨S_, .i32⟩ : BufTy).Contents (Elt F) → (⟨S8388608x3, .i32⟩ : BufTy).Contents (Elt F)),
    binary main_v6 main_v7 main_v8 (muli : (⟨S8388608x3, .i32⟩ : BufTy).Contents (Elt F) → (⟨S8388608x3, .i32⟩ : BufTy).Contents (Elt F) → (⟨S8388608x3, .i32⟩ : BufTy).Contents (Elt F)),
    binary main_v8 main_v5 main_v9 (addi : (⟨S8388608x3, .i32⟩ : BufTy).Contents (Elt F) → (⟨S8388608x3, .i32⟩ : BufTy).Contents (Elt F) → (⟨S8388608x3, .i32⟩ : BufTy).Contents (Elt F)),
    unary main_v2 main_v10 ((extractStridedSlice S8388608x1 ![0, 0] · slices_S8388608x4_S8388608x1_0_0) : (⟨S8388608x4, .i32⟩ : BufTy).Contents (Elt F) → (⟨S8388608x1, .i32⟩ : BufTy).Contents (Elt F)),
    binary main_v10 main_v9 main_v11 ((fun a b => concatenate S8388608x4 1 [⟨S8388608x1, a⟩, ⟨S8388608x3, b⟩] concatenates_S8388608x1_S8388608x3_S8388608x4_d1) : (⟨S8388608x1, .i32⟩ : BufTy).Contents (Elt F) → (⟨S8388608x3, .i32⟩ : BufTy).Contents (Elt F) → (⟨S8388608x4, .i32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., reshape_bufs_sub .., reshape_bufs_sub .., unary_bufs_sub ..,
    reshape_bufs_sub .., unary_bufs_sub .., nullary_bufs_sub .., unary_bufs_sub .., binary_bufs_sub .., binary_bufs_sub ..,
    unary_bufs_sub .., binary_bufs_sub ..⟩

/-- The features regrouped: the same row-major sequence, eight to a row. -/
def feats (x : FVec F S1048576x64 .f32) : FVec F S8388608x8 .f32 :=
  shapeCast S8388608x8 x shapeCasts_S1048576x64_S8388608x8

/-- Every index row repeated eight times, as i32[8388608, 4]. -/
def rep (a : IVec S1048576x4 32) : IVec S8388608x4 32 :=
  shapeCast S8388608x4 (broadcastInDim S1048576x8x4 ![0, 2] bcast_S1048576x4_S1048576x8x4_0_2 a) shapeCasts_S1048576x8x4_S8388608x4

/-- An 8 x 3 table tiled over the rows, as i32[8388608, 3]. -/
def tiled (C : IVec S8x3 32) : IVec S8388608x3 32 :=
  shapeCast S8388608x3 (broadcastInDim S1048576x8x1x3 ![0, 1, 2, 3] bcast_S1x8x1x3_S1048576x8x1x3_0_1_2_3
    (shapeCast S1x8x1x3 C shapeCasts_S8x3_S1x8x1x3)) shapeCasts_S1048576x8x1x3_S8388608x3

/-- The new indices as the reference computes them from a table `C` of offsets: column 0 of the repeated rows, beside
    columns 1..3 doubled plus the tiled table. -/
def newIdx (C : IVec S8x3 32) (a : IVec S1048576x4 32) : IVec S8388608x4 32 :=
  concatenate S8388608x4 1
    [⟨S8388608x1, extractStridedSlice S8388608x1 ![0, 0] (rep a) slices_S8388608x4_S8388608x1_0_0⟩,
     ⟨S8388608x3, addi (muli (extractStridedSlice S8388608x3 ![0, 1] (rep a) slices_S8388608x4_S8388608x3_0_1)
        (broadcastInDim S8388608x3 ![] bcast_S_S8388608x3 (constantI S_ 32 2#32))) (tiled C)⟩]
    concatenates_S8388608x1_S8388608x3_S8388608x4_d1

/-- On every device, for any float values, from any memory with zero counters: every weakly fair execution of @main
    terminates with both results at the operations' composed terms of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = feats (m ((c.tc : Thread nD τ).loc main_arg0))
      ∧ r.2.mem ((c.tc : Thread nD τ).loc main_v11) = newIdx table (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (by after_results; rfl),
      (h c main_v11).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.HostRun

end
-- ==== Proof.Bridge.lean ====
/-
  The reference's new indices are the remap, regrouped. Row r of the reference's result is row r / 8 of the index array
  under corner r % 8: the repeat (a broadcast along a new middle axis, then the reshape that merges it with the rows)
  reads row r / 8, the tiled table (a broadcast along a new leading axis, then the same kind of reshape) reads table row
  r % 8, and the concatenation along the columns puts column 0 beside columns 1..3. The reshape of the kernel's
  [1048576, 8, 4] result to [8388608, 4] reads entry (r / 8, r % 8, k) at (r, k). So, entry by entry, both are
  `expand`.
-/
import proofs.«175016_j40948218200800_1_alg».proof.Proof.RefRun
import proofs.«175016_j40948218200800_1_alg».proof.Proof.Spec
import Idealize.ShloMosaic.Lib.Pipeline.Value
import Idealize.ShloMosaic.Lib.ValueIdx

noncomputable section

open Idealize.ShloMosaic Idealize.ShloMosaic.ValueIdx

namespace Cert.ReferenceIdeal.Bridge

open Cert.ReferenceIdeal Cert.ReferenceIdeal.Gen Cert.ReferenceIdeal.HostRun Cert.Remap

/-- The repeated rows: row r is row r / 8 of the index array. -/
theorem rep_apply (a : IVec S1048576x4 32) (r : Fin 8388608) (k : Fin 4) :
    rep a (ix2 r k) = a (ix2 (⟨r.val / 8, by have := r.isLt; omega⟩ : Fin 1048576) k) := by
  have hr := r.isLt
  unfold rep
  refine (shapeCast_apply _ _ (ix2 r k)
    (ix3 (⟨r.val / 8, by omega⟩ : Fin 1048576) (⟨r.val % 8, by omega⟩ : Fin 8) k) (by
      rw [Shape.rowMajor_val_three, Shape.rowMajor_val_two]
      show (r.val / 8 * 8 + r.val % 8) * 4 + k.val = r.val * 4 + k.val
      omega)).trans ?_
  exact broadcastInDim_apply _ _ _ _ (ix2 (⟨r.val / 8, by omega⟩ : Fin 1048576) k)
    (fun b => match b with | ⟨0, _⟩ => rfl | ⟨1, _⟩ => rfl)

/-- The tiled table: row r is row r % 8 of the table. -/
theorem tiled_apply (C : IVec S8x3 32) (r : Fin 8388608) (k : Fin 3) :
    tiled C (ix2 r k) = C (ix2 (⟨r.val % 8, by omega⟩ : Fin 8) k) := by
  have hr := r.isLt
  unfold tiled
  refine (shapeCast_apply _ _ (ix2 r k)
    (ix4 (⟨r.val / 8, by omega⟩ : Fin 1048576) (⟨r.val % 8, by omega⟩ : Fin 8) (0 : Fin 1) k) (by
      rw [Shape.rowMajor_val_four, Shape.rowMajor_val_two]
      show ((r.val / 8 * 8 + r.val % 8) * 1 + 0) * 3 + k.val = r.val * 3 + k.val
      omega)).trans ?_
  refine (broadcastInDim_apply _ _ _ _ (ix4 (0 : Fin 1) (⟨r.val % 8, by omega⟩ : Fin 8) (0 : Fin 1) k)
    (fun b => match b with | ⟨0, _⟩ => rfl | ⟨1, _⟩ => rfl | ⟨2, _⟩ => rfl | ⟨3, _⟩ => rfl)).trans ?_
  exact shapeCast_apply _ _ (ix4 (0 : Fin 1) (⟨r.val % 8, by omega⟩ : Fin 8) (0 : Fin 1) k)
    (ix2 (⟨r.val % 8, by omega⟩ : Fin 8) k) (by
      rw [Shape.rowMajor_val_two, Shape.rowMajor_val_four]
      show r.val % 8 * 3 + k.val = ((0 * 8 + r.val % 8) * 1 + 0) * 3 + k.val
      omega)

/-- The reference's new indices are the remap of the index array and the table, read through the reshape that merges
    the corner axis into the rows. -/
theorem newIdx_eq (C : IVec S8x3 32) (a : IVec S1048576x4 32) (h : S1048576x8x4.ShapeCasts S8388608x4) :
    newIdx C a = shapeCast S8388608x4 (expand (R := 1048576) a C) h := by
  funext j
  obtain ⟨r, k, rfl⟩ : ∃ (r : Fin 8388608) (k : Fin 4), j = ix2 r k := ⟨j 0, j 1, eq_ix2 j⟩
  have hr := r.isLt
  have hk := k.isLt
  rw [shapeCast_apply (expand (R := 1048576) a C) h (ix2 r k)
    (ix3 (⟨r.val / 8, by omega⟩ : Fin 1048576) (⟨r.val % 8, by omega⟩ : Fin 8) k) (by
      rw [Shape.rowMajor_val_three, Shape.rowMajor_val_two]
      show (r.val / 8 * 8 + r.val % 8) * 4 + k.val = r.val * 4 + k.val
      omega)]
  unfold newIdx
  by_cases h0 : k.val = 0
  · rw [expand_col0 a C _ (⟨r.val / 8, by omega⟩ : Fin 1048576) rfl h0]
    refine (concatenate_pair_apply_left (t := S8388608x4) (s₁ := S8388608x1) (s₂ := S8388608x3) (1 : Fin 2) _ _ _ (ix2 r k) rfl (ix2 r (0 : Fin 1))
      (fun b => match b with | ⟨0, _⟩ => rfl | ⟨1, _⟩ => by show 0 = k.val; omega)).trans ?_
    refine (extractStridedSlice_apply ![0, 0] (rep a) slices_S8388608x4_S8388608x1_0_0 (ix2 r (0 : Fin 1)) (ix2 r (0 : Fin 4))
      (fun b => match b with | ⟨0, _⟩ => by show r.val = 0 + r.val; omega | ⟨1, _⟩ => rfl)).trans ?_
    exact rep_apply a r 0
  · have e1 : extractStridedSlice S8388608x3 ![0, 1] (rep a) slices_S8388608x4_S8388608x3_0_1
        (ix2 r (⟨k.val - 1, by omega⟩ : Fin 3)) = a (ix2 (⟨r.val / 8, by omega⟩ : Fin 1048576) k) :=
      (extractStridedSlice_apply ![0, 1] (rep a) slices_S8388608x4_S8388608x3_0_1 (ix2 r (⟨k.val - 1, by omega⟩ : Fin 3)) (ix2 r k)
        (fun b => match b with
          | ⟨0, _⟩ => by show r.val = 0 + r.val; omega
          | ⟨1, _⟩ => by show k.val = 1 + (k.val - 1); omega)).trans (rep_apply a r k)
    have e2 := tiled_apply C r (⟨k.val - 1, by omega⟩ : Fin 3)
    rw [expand_col a C _ (⟨r.val / 8, by omega⟩ : Fin 1048576) (⟨r.val % 8, by omega⟩ : Fin 8) k (⟨k.val - 1, by omega⟩ : Fin 3)
      rfl rfl rfl (by show k.val - 1 + 1 = k.val; omega), ← e1, ← e2]
    exact concatenate_pair_apply_right (t := S8388608x4) (s₁ := S8388608x1) (s₂ := S8388608x3) (1 : Fin 2) _ _ _ (ix2 r k) rfl rfl (ix2 r (⟨k.val - 1, by omega⟩ : Fin 3))
      (fun b hb => match b, hb with | ⟨0, _⟩, _ => rfl | ⟨1, _⟩, hb => absurd rfl hb)
      (by show k.val - 1 + 1 = k.val; omega)

end Cert.ReferenceIdeal.Bridge

end
-- ==== Proof.lean ====
/-
  A sparse voxel upsampling by 2 per axis: the features f32[1048576, 64] are regrouped to f32[8388608, 8] (the same
  row-major sequence, eight to a row), and every index row (b, z, y, x) of i32[1048576, 4] becomes eight rows
  (b, 2z + dz, 2y + dy, 2x + dx), one per corner (dz, dy, dx) of the 2 x 2 x 2 cell in a fixed order given by an 8 x 3
  table. The kernel computes the new indices blockwise on a grid of 64 points, 16384 index rows to a point, into a
  [1048576, 8, 4] array that the host then regroups to [8388608, 4]; the reference repeats every row eight times, tiles
  the table over the rows, doubles columns 1..3 and adds, and joins column 0 back on.

  Both sides are the same function of the arguments, entry by entry: the remap `Cert.Remap.expand` (Proof/Spec.lean) read
  through the regrouping, row r of the result being row r / 8 of the index array under corner r % 8. The arithmetic is
  32-bit wrapping on both sides and the same two word operations in the same order, and the features are only
  regrouped, so no property of the float inputs is used. The kernel side: one point's block is the remap of the staged
  rows (Proof/KernelBlock.lean), the 64 blocks tile the result, the host lines around the region are read off the run
  (Proof/KernelValue.lean). The reference side: its run (Proof/RefRun.lean) and its term read entry by entry
  (Proof/Bridge.lean). The idealization rewrote nothing, so `preserves` is trivial; the two kernel frames are the
  generated frame runs, the reference's frame is its run with the results dropped.
-/
import proofs.«175016_j40948218200800_1_alg».proof.Defs
import proofs.«175016_j40948218200800_1_alg».proof.Proof.Gen.Kernel
import proofs.«175016_j40948218200800_1_alg».proof.Proof.Gen.Kernel.Skeleton
import proofs.«175016_j40948218200800_1_alg».proof.Proof.Gen.Kernel.Launch
import proofs.«175016_j40948218200800_1_alg».proof.Proof.Gen.Kernel.Points
import proofs.«175016_j40948218200800_1_alg».proof.Proof.Gen.Kernel.Frame
import proofs.«175016_j40948218200800_1_alg».proof.Proof.Gen.KernelIdeal
import proofs.«175016_j40948218200800_1_alg».proof.Proof.Gen.KernelIdeal.Skeleton
import proofs.«175016_j40948218200800_1_alg».proof.Proof.Gen.KernelIdeal.Launch
import proofs.«175016_j40948218200800_1_alg».proof.Proof.Gen.KernelIdeal.Points
import proofs.«175016_j40948218200800_1_alg».proof.Proof.Gen.KernelIdeal.Frame
import proofs.«175016_j40948218200800_1_alg».proof.Proof.Gen.ReferenceIdeal
import proofs.«175016_j40948218200800_1_alg».proof.Proof.Gen.Pre_finite_inputs
import proofs.«175016_j40948218200800_1_alg».proof.Proof.KernelValue
import proofs.«175016_j40948218200800_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => ⟨(h c).2.2.1, (h c).2.2.2⟩)
    (Cert.ReferenceIdeal.HostRun.run (F := Ideal) m ρ)

/-- The two programs print the same table of corner offsets. -/
theorem table_eq : Cert.ReferenceIdeal.HostRun.table
    = fun i => Cert.KernelIdeal.lit0 (Cert.KernelIdeal.S8x3.rowMajor i) :=
  funext fun i => (by decide : ∀ q : Fin 24, Cert.ReferenceIdeal.lit0 q = Cert.KernelIdeal.lit0 q) _

/-- At the ideal instance both programs end with the regrouped features and with the remap of the index array
    regrouped to [8388608, 4]: the kernel's run states them so, and the reference's composed terms are these. -/
theorem algebraic : Cert.algebraic_KernelIdeal_ReferenceIdeal := by
  intro m ρ m' ρ' _ hagree
  refine ⟨_, _, Cert.KernelIdeal.Remap.run (F := Ideal) m ρ, ?_⟩
  refine (θ_run Cert.ReferenceIdeal.defs _ _).mono (fun _ h c => ⟨?_, ?_, (h c).2.2.1, (h c).2.2.2⟩)
    (Cert.ReferenceIdeal.HostRun.run (F := Ideal) m' ρ')
  · refine (h c).1.trans ?_
    rw [(hagree c).1]
    rfl
  · refine (h c).2.1.trans ?_
    rw [(hagree c).2, Cert.ReferenceIdeal.Bridge.newIdx_eq _ _ Cert.KernelIdeal.Gen.shapeCasts_S1048576x8x4_S8388608x4, table_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
